-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x128x128x128 : Shape := ⟨4, ![16, 128, 128, 128]⟩
abbrev S_ : Shape := ⟨0, ![]⟩

class Facts : Prop where
  bcast_S_S16x128x128x128 : S_.BroadcastsInDim S16x128x128x128 (![] : Fin 0 → Fin S16x128x128x128.rank)
  reducesTo_S16x128x128x128_S_d0_1_2_3 : S16x128x128x128.ReducesTo [0, 1, 2, 3] S_
  h_S_ : 0 < S_.numel

variable [Facts]

def fn {F : FTy → Type} [FloatOps F] (main_arg0 : FVec F S16x128x128x128 .f32) : IVec S_ 1 :=
  let main_v0 : FVec F S16x128x128x128 .f32 := Host.absf main_arg0
  let main_cst : FVec F S_ .f32 := constant S_ .f32 0x7F800000#32
  let main_v1 : FVec F S16x128x128x128 .f32 := broadcastInDim S16x128x128x128 ![] bcast_S_S16x128x128x128 main_cst
  let main_v2 : IVec S16x128x128x128 1 := cmpf .olt main_v0 main_v1
  let main_c : IVec S_ 1 := constantI S_ 1 1#1
  let main_v3 : IVec S_ 1 := (fun x v => Host.reduce IntOp.andi x v reducesTo_S16x128x128x128_S_d0_1_2_3 h_S_) main_v2 main_c
  main_v3
-- ==== Kernel.lean ====
abbrev S16x128x128x128 : Shape := ⟨4, ![16, 128, 128, 128]⟩
abbrev S16x128x256x256 : Shape := ⟨4, ![16, 128, 256, 256]⟩
abbrev S1x32x128x128 : Shape := ⟨4, ![1, 32, 128, 128]⟩
abbrev S1x32x256x256 : Shape := ⟨4, ![1, 32, 256, 256]⟩
abbrev S32x128x128 : Shape := ⟨3, ![32, 128, 128]⟩
abbrev S32x128x128x1 : Shape := ⟨4, ![32, 128, 128, 1]⟩
abbrev S32x128x128x2 : Shape := ⟨4, ![32, 128, 128, 2]⟩
abbrev S32x128x256 : Shape := ⟨3, ![32, 128, 256]⟩
abbrev S32x128x1x256 : Shape := ⟨4, ![32, 128, 1, 256]⟩
abbrev S32x128x2x256 : Shape := ⟨4, ![32, 128, 2, 256]⟩
abbrev S32x256x256 : Shape := ⟨3, ![32, 256, 256]⟩

abbrev nBuf : Space → Nat
  | .hbm => 2
  | .vmem => 4
  | .smem => 0
  | _ => 0

abbrev bufTy : (tb : Table) → Fin (tcTables nBuf tb) → BufTy
  | .hbm, ⟨0, _⟩ => ⟨S16x128x128x128, .f32⟩
  | .hbm, ⟨1, _⟩ => ⟨S16x128x256x256, .f32⟩
  | .local _ .vmem, ⟨0, _⟩ => ⟨S1x32x128x128, .f32⟩
  | .local _ .vmem, ⟨1, _⟩ => ⟨S1x32x128x128, .f32⟩
  | .local _ .vmem, ⟨2, _⟩ => ⟨S1x32x256x256, .f32⟩
  | .local _ .vmem, ⟨3, _⟩ => ⟨S1x32x256x256, .f32⟩
  | _, _ => ⟨S16x128x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![16, 4], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x32x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x32x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

class Facts₀ : Prop where
  inb_S1x32x128x128_S1x32x128x128_0_0_0_0 : ∀ a, (![0, 0, 0, 0] : Fin 4 → Nat) a + S1x32x128x128.size a ≤ S1x32x128x128.size a
  h_S1x32x128x128 : 0 < S1x32x128x128.numel
  shapeCasts_S1x32x128x128_S32x128x128 : S1x32x128x128.ShapeCasts S32x128x128
  shapeCasts_S32x128x128_S32x128x128x1 : S32x128x128.ShapeCasts S32x128x128x1
  broadcasts_S32x128x128x1_S32x128x128x2 : S32x128x128x1.Broadcasts S32x128x128x2
  shapeCasts_S32x128x128x2_S32x128x256 : S32x128x128x2.ShapeCasts S32x128x256
  shapeCasts_S32x128x256_S32x128x1x256 : S32x128x256.ShapeCasts S32x128x1x256
  broadcasts_S32x128x1x256_S32x128x2x256 : S32x128x1x256.Broadcasts S32x128x2x256
  shapeCasts_S32x128x2x256_S32x256x256 : S32x128x2x256.ShapeCasts S32x256x256
  inb_S1x32x256x256_S1x32x256x256_0_0_0_0 : ∀ a, (![0, 0, 0, 0] : Fin 4 → Nat) a + S1x32x256x256.size a ≤ S1x32x256x256.size a
  h_S1x32x256x256 : 0 < S1x32x256x256.numel
  shapeCasts_S1x32x256x256_S32x256x256 : S1x32x256x256.ShapeCasts S32x256x256
  shapeCasts_S32x256x256_S1x32x256x256 : S32x256x256.ShapeCasts S1x32x256x256
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x32x128x128.size a ≤ S16x128x128x128.size a
  hwx0_0 : ∀ i : grid0.Coords, EltTy.bits .f32 = 32 ∨ (Rect.block (s := S16x128x128x128) S1x32x128x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x32x256x256.size a ≤ S16x128x256x256.size a
  hwx0_1 : ∀ i : grid0.Coords, EltTy.bits .f32 = 32 ∨ (Rect.block (s := S16x128x256x256) S1x32x256x256.size (cc0_transform_1 i) (hinb0_1 i)).WholeWords (EltTy.packing .f32)

variable [Facts₀]

abbrev win0_0 : Pipeline.Window sig grid0 :=
  Pipeline.Window.ofSpec (Memref.whole main_arg0) S1x32x128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x32x256x256.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S16x128x128x128 : Shape := ⟨4, ![16, 128, 128, 128]⟩
abbrev S16x128x128x128x2 : Shape := ⟨5, ![16, 128, 128, 128, 2]⟩
abbrev S16x128x128x256 : Shape := ⟨4, ![16, 128, 128, 256]⟩
abbrev S16x128x128x2x256 : Shape := ⟨5, ![16, 128, 128, 2, 256]⟩
abbrev S16x128x256x256 : Shape := ⟨4, ![16, 128, 256, 256]⟩

abbrev nBuf : Space → Nat
  | .hbm => 5
  | .vmem => 0
  | .smem => 0
  | _ => 0

abbrev bufTy : (tb : Table) → Fin (tcTables nBuf tb) → BufTy
  | .hbm, ⟨0, _⟩ => ⟨S16x128x128x128, .f32⟩
  | .hbm, ⟨1, _⟩ => ⟨S16x128x128x128x2, .f32⟩
  | .hbm, ⟨2, _⟩ => ⟨S16x128x128x256, .f32⟩
  | .hbm, ⟨3, _⟩ => ⟨S16x128x128x2x256, .f32⟩
  | .hbm, ⟨4, _⟩ => ⟨S16x128x256x256, .f32⟩
  | _, _ => ⟨S16x128x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩

abbrev nD : Nat := 1
abbrev τ : Topo := Topo.v7x

variable {F : FTy → Type} [FloatOps F]

class Facts₀ : Prop where
  bcast_S16x128x128x128_S16x128x128x128x2_0_1_2_3 : S16x128x128x128.BroadcastsInDim S16x128x128x128x2 (![0, 1, 2, 3] : Fin 4 → Fin S16x128x128x128x2.rank)
  shapeCasts_S16x128x128x128x2_S16x128x128x256 : S16x128x128x128x2.ShapeCasts S16x128x128x256
  bcast_S16x128x128x256_S16x128x128x2x256_0_1_2_4 : S16x128x128x256.BroadcastsInDim S16x128x128x2x256 (![0, 1, 2, 4] : Fin 4 → Fin S16x128x128x2x256.rank)
  shapeCasts_S16x128x128x2x256_S16x128x256x256 : S16x128x128x2x256.ShapeCasts S16x128x256x256

variable [Facts₀]

class Facts : Prop extends Facts₀ where

variable [Facts]
-- ==== Proof.Upsample.lean ====
/-
  Nearest-neighbour doubling of the two minor axes, as pure index arithmetic.

  `up2 x` is the array whose entry at (b, c, h, w) is x at (b, c, h / 2, w / 2): every pixel of x appears in a 2 × 2
  square. Nothing here computes on the entries, so everything is stated for an arbitrary entry type.

  `block_apply` reads, at an index, the chain of re-layouts by which a [1, 32, 128, 128] block becomes a
  [1, 32, 256, 256] block: drop the unit axis, append a unit minor axis and broadcast it to 2, merge the last two axes
  (each column twice, side by side: column w comes from column w / 2), insert a unit axis before the columns and
  broadcast it to 2, merge it with the rows (each row twice: row h comes from row h / 2), and put the unit axis back.
  Every shape cast keeps the row-major position, and every broadcast reads coordinate 0 on the unit axis; the
  row-major positions are compared as linear arithmetic with division and remainder by 2.
-/
import Idealize.ShloMosaic.Lib.ValueIdx
import Idealize.ShloMosaic.Lib.Pipeline.Value

namespace Cert.Upsample

open Idealize.ShloMosaic Idealize.ShloMosaic.ValueIdx

/-- Half of a coordinate of an axis of extent 256, a coordinate of an axis of extent 128. -/
abbrev half (a : Fin 256) : Fin 128 := ⟨a.val / 2, by have := a.isLt; omega⟩

/-- The parity of a coordinate: which of the two copies it is. -/
abbrev par (a : Fin 256) : Fin 2 := ⟨a.val % 2, by omega⟩

/-- The doubled array: entry (b, c, h, w) is the entry (b, c, h / 2, w / 2) of `x`. -/
def up2 {α : Type} (x : (⟨4, ![16, 128, 128, 128]⟩ : Shape).Idx → α) : (⟨4, ![16, 128, 256, 256]⟩ : Shape).Idx → α :=
  fun i => x (ix4 (n0 := 16) (n1 := 128) (n2 := 128) (n3 := 128) (i 0) (i 1) (half (i 2)) (half (i 3)))

theorem up2_apply {α : Type} (x : (⟨4, ![16, 128, 128, 128]⟩ : Shape).Idx → α) (b : Fin 16) (c : Fin 128) (p q : Fin 256) :
    up2 x (ix4 b c p q) = x (ix4 b c (half p) (half q)) := rfl

abbrev B0 : Shape := ⟨4, ![1, 32, 128, 128]⟩
abbrev B1 : Shape := ⟨4, ![1, 32, 256, 256]⟩
abbrev T0 : Shape := ⟨3, ![32, 128, 128]⟩
abbrev T1 : Shape := ⟨4, ![32, 128, 128, 1]⟩
abbrev T2 : Shape := ⟨4, ![32, 128, 128, 2]⟩
abbrev T3 : Shape := ⟨3, ![32, 128, 256]⟩
abbrev T4 : Shape := ⟨4, ![32, 128, 1, 256]⟩
abbrev T5 : Shape := ⟨4, ![32, 128, 2, 256]⟩
abbrev T6 : Shape := ⟨3, ![32, 256, 256]⟩

/-- The block's chain of re-layouts read at (z, c, p, q): the loaded block at (z, c, p / 2, q / 2). -/
theorem block_apply {α : Type} (v0 : B0.Idx → α)
    (h1 : B0.ShapeCasts T0) (h2 : T0.ShapeCasts T1) (h3 : T1.Broadcasts T2) (h4 : T2.ShapeCasts T3)
    (h5 : T3.ShapeCasts T4) (h6 : T4.Broadcasts T5) (h7 : T5.ShapeCasts T6) (h8 : T6.ShapeCasts B1)
    (z : Fin 1) (c : Fin 32) (p q : Fin 256) :
    shapeCast B1 (shapeCast T6 (broadcastTo T5 (shapeCast T4 (shapeCast T3 (broadcastTo T2
      (shapeCast T1 (shapeCast T0 v0 h1) h2) h3) h4) h5) h6) h7) h8 (ix4 z c p q)
      = v0 (ix4 z c (half p) (half q)) := by
  have hz : z.val = 0 := by have := z.isLt; omega
  have hc : c.val < 32 := c.isLt
  have hp : p.val < 256 := p.isLt
  have hq : q.val < 256 := q.isLt
  -- the unit axis back in front: same row-major position
  refine (shapeCast_apply _ h8 (ix4 z c p q) (ix3 c p q) ?_).trans ?_
  · rewrite [Shape.rowMajor_val_three, Shape.rowMajor_val_four]
    show (c.val * 256 + p.val) * 256 + q.val = ((z.val * 32 + c.val) * 256 + p.val) * 256 + q.val
    omega
  -- rows merged from (row / 2, copy)
  refine (shapeCast_apply _ h7 (ix3 c p q) (ix4 c (half p) (par p) q) ?_).trans ?_
  · rewrite [Shape.rowMajor_val_four, Shape.rowMajor_val_three]
    show ((c.val * 128 + p.val / 2) * 2 + p.val % 2) * 256 + q.val = (c.val * 256 + p.val) * 256 + q.val
    omega
  -- the copy axis is a broadcast of a unit axis
  refine (broadcastTo_apply _ h6 (ix4 c (half p) (par p) q) (ix4 c (half p) (0 : Fin 1) q) (fun a => match a with
    | ⟨0, _⟩ => by show c.val = if (32 : Nat) = 1 then 0 else c.val; rw [if_neg (by decide)]
    | ⟨1, _⟩ => by show p.val / 2 = if (128 : Nat) = 1 then 0 else p.val / 2; rw [if_neg (by decide)]
    | ⟨2, _⟩ => by show (0 : Nat) = if (1 : Nat) = 1 then 0 else p.val % 2; rw [if_pos rfl]
    | ⟨3, _⟩ => by show q.val = if (256 : Nat) = 1 then 0 else q.val; rw [if_neg (by decide)])).trans ?_
  -- the unit axis inserted before the columns
  refine (shapeCast_apply _ h5 (ix4 c (half p) (0 : Fin 1) q) (ix3 c (half p) q) ?_).trans ?_
  · rewrite [Shape.rowMajor_val_three, Shape.rowMajor_val_four]
    show (c.val * 128 + p.val / 2) * 256 + q.val = ((c.val * 128 + p.val / 2) * 1 + 0) * 256 + q.val
    omega
  -- columns merged from (column / 2, copy)
  refine (shapeCast_apply _ h4 (ix3 c (half p) q) (ix4 c (half p) (half q) (par q)) ?_).trans ?_
  · rewrite [Shape.rowMajor_val_four, Shape.rowMajor_val_three]
    show ((c.val * 128 + p.val / 2) * 128 + q.val / 2) * 2 + q.val % 2 = (c.val * 128 + p.val / 2) * 256 + q.val
    omega
  -- the copy axis is a broadcast of a unit axis
  refine (broadcastTo_apply _ h3 (ix4 c (half p) (half q) (par q)) (ix4 c (half p) (half q) (0 : Fin 1)) (fun a => match a with
    | ⟨0, _⟩ => by show c.val = if (32 : Nat) = 1 then 0 else c.val; rw [if_neg (by decide)]
    | ⟨1, _⟩ => by show p.val / 2 = if (128 : Nat) = 1 then 0 else p.val / 2; rw [if_neg (by decide)]
    | ⟨2, _⟩ => by show q.val / 2 = if (128 : Nat) = 1 then 0 else q.val / 2; rw [if_neg (by decide)]
    | ⟨3, _⟩ => by show (0 : Nat) = if (1 : Nat) = 1 then 0 else q.val % 2; rw [if_pos rfl])).trans ?_
  -- the unit minor axis appended
  refine (shapeCast_apply _ h2 (ix4 c (half p) (half q) (0 : Fin 1)) (ix3 c (half p) (half q)) ?_).trans ?_
  · rewrite [Shape.rowMajor_val_three, Shape.rowMajor_val_four]
    show (c.val * 128 + p.val / 2) * 128 + q.val / 2 = ((c.val * 128 + p.val / 2) * 128 + q.val / 2) * 1 + 0
    omega
  -- the block's leading unit axis dropped
  refine shapeCast_apply v0 h1 (ix3 c (half p) (half q)) (ix4 z c (half p) (half q)) ?_
  rewrite [Shape.rowMajor_val_four, Shape.rowMajor_val_three]
  show ((z.val * 32 + c.val) * 128 + p.val / 2) * 128 + q.val / 2 = (c.val * 128 + p.val / 2) * 128 + q.val / 2
  omega

end Cert.Upsample
-- ==== Proof.RefUp.lean ====
/-
  The reference, read index by index, is the doubled array.

  The reference doubles the columns by broadcasting a new minor axis of extent 2 and merging it into the column axis,
  then doubles the rows by broadcasting a new axis of extent 2 after the row axis and merging it into the row axis.
  A merge keeps the row-major position, so a merged coordinate h splits as (h / 2, h % 2), and a broadcast forgets
  the new coordinate: entry (b, c, h, w) of the result is entry (b, c, h / 2, w / 2) of the argument.
-/
import proofs.«147741_j57312043598151_1_alg».proof.Proof.Gen.ReferenceIdeal.Read
import proofs.«147741_j57312043598151_1_alg».proof.Proof.Upsample

noncomputable section

namespace Cert.ReferenceIdeal.RefValue

open Cert.ReferenceIdeal Cert.ReferenceIdeal.Read Idealize.ShloMosaic Idealize.ShloMosaic.ValueIdx Cert.Upsample

variable {F : FTy → Type} [FloatOps F]

/-- Un-merging the rows: (b, c, h, w) of the result has the row-major position of (b, c, h / 2, h % 2, w). -/
theorem rows_split (b : Fin 16) (c : Fin 128) (p q : Fin 256) :
    idx_main_v3 (ix4 b c p q) = ix5 b c (half p) (par p) q := by
  have hb := b.isLt; have hc := c.isLt; have hp := p.isLt; have hq := q.isLt
  funext a; apply Fin.ext
  match a with
  | ⟨0, _⟩ => show (((b.val * 128 + c.val) * 256 + p.val) * 256 + q.val) / 8388608 = b.val; omega
  | ⟨1, _⟩ => show (((b.val * 128 + c.val) * 256 + p.val) * 256 + q.val) / 65536 % 128 = c.val; omega
  | ⟨2, _⟩ => show (((b.val * 128 + c.val) * 256 + p.val) * 256 + q.val) / 512 % 128 = p.val / 2; omega
  | ⟨3, _⟩ => show (((b.val * 128 + c.val) * 256 + p.val) * 256 + q.val) / 256 % 2 = p.val % 2; omega
  | ⟨4, _⟩ => show (((b.val * 128 + c.val) * 256 + p.val) * 256 + q.val) % 256 = q.val; omega

/-- The row copies are a broadcast: the copy coordinate is forgotten. -/
theorem rows_copy (b : Fin 16) (c : Fin 128) (r : Fin 128) (e : Fin 2) (q : Fin 256) :
    idx_main_v2 (ix5 b c r e q) = ix4 b c r q := by
  funext a
  match a with
  | ⟨0, _⟩ => rfl
  | ⟨1, _⟩ => rfl
  | ⟨2, _⟩ => rfl
  | ⟨3, _⟩ => rfl

/-- Un-merging the columns: (b, c, r, w) has the row-major position of (b, c, r, w / 2, w % 2). -/
theorem cols_split (b : Fin 16) (c : Fin 128) (r : Fin 128) (q : Fin 256) :
    idx_main_v1 (ix4 b c r q) = ix5 b c r (half q) (par q) := by
  have hb := b.isLt; have hc := c.isLt; have hr := r.isLt; have hq := q.isLt
  funext a; apply Fin.ext
  match a with
  | ⟨0, _⟩ => show (((b.val * 128 + c.val) * 128 + r.val) * 256 + q.val) / 4194304 = b.val; omega
  | ⟨1, _⟩ => show (((b.val * 128 + c.val) * 128 + r.val) * 256 + q.val) / 32768 % 128 = c.val; omega
  | ⟨2, _⟩ => show (((b.val * 128 + c.val) * 128 + r.val) * 256 + q.val) / 256 % 128 = r.val; omega
  | ⟨3, _⟩ => show (((b.val * 128 + c.val) * 128 + r.val) * 256 + q.val) / 2 % 128 = q.val / 2; omega
  | ⟨4, _⟩ => show (((b.val * 128 + c.val) * 128 + r.val) * 256 + q.val) % 2 = q.val % 2; omega

/-- The column copies are a broadcast: the copy coordinate is forgotten. -/
theorem cols_copy (b : Fin 16) (c : Fin 128) (r s : Fin 128) (e : Fin 2) :
    idx_main_v0 (ix5 b c r s e) = ix4 b c r s := by
  funext a
  match a with
  | ⟨0, _⟩ => rfl
  | ⟨1, _⟩ => rfl
  | ⟨2, _⟩ => rfl
  | ⟨3, _⟩ => rfl

/-- The reference's result is the doubled argument. -/
theorem result_eq_up2 (x0 : S16x128x128x128.Idx → Elt F .f32) : val_main_v3 (F := F) x0 = up2 x0 := by
  funext i
  obtain ⟨b, c, p, q, rfl⟩ : ∃ (b : Fin 16) (c : Fin 128) (p q : Fin 256), i = ix4 b c p q :=
    ⟨i 0, i 1, i 2, i 3, eq_ix4 i⟩
  rw [val_main_v3_apply, rows_split, val_main_v2_apply, rows_copy, val_main_v1_apply, cols_split, val_main_v0_apply,
    cols_copy, up2_apply]

end Cert.ReferenceIdeal.RefValue

end
-- ==== Proof.KernelUp.lean ====
/-
  The kernel's result array is the doubled argument.

  The grid has 16 × 4 points; point (i, j) stages the input block [i, 32 j .. 32 j + 31, all rows, all columns] and
  writes back the output block with the same two leading block indices and all 256 rows and columns. The body re-lays
  the loaded block so that its entry (0, c, h, w) is the loaded (0, c, h / 2, w / 2). An entry of the output block sits at
  array index (i, 32 j + c, h, w), and the entry of the input block it reads sits at (i, 32 j + c, h / 2, w / 2): the two
  leading block indices agree and the two minor ones are zero on both sides, so halving a coordinate inside the block is
  halving the array coordinate. Hence each point writes back its block of ONE whole-array function, the doubled
  argument; the 64 blocks cover the output array (the point for index (b, c, h, w) is (b, c / 32)), so that function is
  what the array holds after the run.
-/
import proofs.«147741_j57312043598151_1_alg».proof.Proof.Gen.KernelIdeal.Value
import proofs.«147741_j57312043598151_1_alg».proof.Proof.Upsample

set_option maxRecDepth 16384

noncomputable section

namespace Cert.KernelIdeal.UpValue

open Cert.KernelIdeal Cert.KernelIdeal.Gen Idealize.ShloMosaic Idealize.ShloMosaic.TcCoe Idealize.SL.Sem
open Idealize.ShloMosaic.ValueIdx Cert.Upsample
open Idealize.ShloMosaic.Pipeline (Dat)

variable {F : FTy → Type} [FloatOps F]
variable (m : (ℓ : Loc nD τ sig) → Buf (Elt F) ℓ) (ρ : Dev nD → PrngReg)

/-- The body's stored value at (z, c, p, q) is the loaded block at (z, c, p / 2, q / 2). -/
theorem pay_apply (v0 : Vec F S1x32x128x128 .f32) (z : Fin 1) (c : Fin 32) (p q : Fin 256) :
    k0_pay1 v0 (ix4 z c p q) = v0 (ix4 z c (half p) (half q)) := by
  unfold k0_pay1
  exact block_apply v0 _ _ _ _ _ _ _ _ z c p q

theorem zero_offsets : (![0, 0, 0, 0] : Fin 4 → Nat) = fun _ => 0 := funext fun a => by fin_cases a <;> rfl

/-- The two index maps over the 64 grid points: equal leading block indices, zero minor ones, within the grid. -/
theorem idx_facts : ∀ t : Fin cfg0.N,
    win0_0.index t (0 : Fin 4) = win0_1.index t (0 : Fin 4)
    ∧ win0_0.index t (1 : Fin 4) = win0_1.index t (1 : Fin 4)
    ∧ win0_0.index t (2 : Fin 4) = 0 ∧ win0_0.index t (3 : Fin 4) = 0
    ∧ win0_1.index t (2 : Fin 4) = 0 ∧ win0_1.index t (3 : Fin 4) = 0 :=
  (by decide +kernel : ∀ t : Fin grid0.N, _)

/-- Every pair of leading block indices is some point's. -/
theorem idx_onto : ∀ (q0 : Fin 16) (q1 : Fin 4), ∃ t : Fin cfg0.N, win0_1.index t = ![q0.val, q1.val, 0, 0] :=
  (by decide +kernel : ∀ (q0 : Fin 16) (q1 : Fin 4), ∃ t : Fin grid0.N, win0_1.index t = ![q0.val, q1.val, 0, 0])

/-- What point `t` writes back is its block of the doubled argument array. -/
theorem flushed_eq (c : Dev nD) (t : Fin cfg0.N) :
    (dats m 0 c).flushed 1 t = ((cfg0.win 1).blk t).view.read (Elt F) (up2 (α := Elt F .f32) (V m c main_arg0)) := by
  rw [Cert.KernelIdeal.Value.flushed1]
  unfold out0_1
  rw [View.canon_unit_zero zero_offsets]
  simp only [View.ld_unit_zero (S := S1x32x128x128) zero_offsets]
  obtain ⟨e0, e1, e2, e3, e4, e5⟩ := idx_facts t
  funext j
  obtain ⟨z, cc, p, q, rfl⟩ : ∃ (z : Fin 1) (cc : Fin 32) (p q : Fin 256), j = ix4 z cc p q :=
    ⟨j 0, j 1, j 2, j 3, eq_ix4 (n0 := 1) (n1 := 32) (n2 := 256) (n3 := 256) j⟩
  show k0_pay1 (iblk m c 0 t) (ix4 z cc p q)
    = up2 (α := Elt F .f32) (V m c main_arg0) (((cfg0.win 1).blk t).view.emb (ix4 z cc p q))
  refine (pay_apply (iblk m c 0 t) z cc p q).trans ?_
  show V m c main_arg0 (((cfg0.win 0).blk t).view.emb (ix4 z cc (half p) (half q))) = _
  unfold up2
  refine congrArg (V m c main_arg0) (funext fun a => Fin.ext ?_)
  have hp := p.isLt; have hq := q.isLt
  match a with
  | ⟨0, _⟩ =>
    show win0_0.index t (0 : Fin 4) * 1 + 1 * z.val = win0_1.index t (0 : Fin 4) * 1 + 1 * z.val
    omega
  | ⟨1, _⟩ =>
    show win0_0.index t (1 : Fin 4) * 32 + 1 * cc.val = win0_1.index t (1 : Fin 4) * 32 + 1 * cc.val
    omega
  | ⟨2, _⟩ =>
    show win0_0.index t (2 : Fin 4) * 128 + 1 * (p.val / 2) = (win0_1.index t (2 : Fin 4) * 256 + 1 * p.val) / 2
    omega
  | ⟨3, _⟩ =>
    show win0_0.index t (3 : Fin 4) * 128 + 1 * (q.val / 2) = (win0_1.index t (3 : Fin 4) * 256 + 1 * q.val) / 2
    omega

/-- An index of the output array is in point `t`'s block iff each coordinate is in the block's range on its axis. -/
theorem mem_blk (t : Fin cfg0.N) (i : S16x128x256x256.Idx) :
    i ∈ ((cfg0.win 1).blk t).view.set ↔ ∀ a : Fin 4, win0_1.index t a * S1x32x256x256.size a ≤ (i a).val
      ∧ (i a).val < win0_1.index t a * S1x32x256x256.size a + S1x32x256x256.size a := by
  show i ∈ ((View.whole main_v0).slice (win0_1.rect t)).set ↔ _
  rw [View.set_slice_whole, Rect.mem_set_unit]
  exact Iff.rfl

/-- The blocks cover the output array: index (b, c, h, w) is in the block of the point with block indices (b, c / 32). -/
theorem cover (i : S16x128x256x256.Idx) :
    ∃ t : Fin cfg0.N, (cfg0.win 1).flush t = true ∧ i ∈ ((cfg0.win 1).blk t).view.set := by
  have hi0 : (i 0).val < 16 := (i 0).isLt
  have hi1 : (i 1).val < 128 := (i 1).isLt
  have hi2 : (i 2).val < 256 := (i 2).isLt
  have hi3 : (i 3).val < 256 := (i 3).isLt
  obtain ⟨t, ht⟩ := idx_onto ⟨(i 0).val, hi0⟩ ⟨(i 1).val / 32, by omega⟩
  have q0 : win0_1.index t (0 : Fin 4) = (i 0).val := congrFun ht 0
  have q1 : win0_1.index t (1 : Fin 4) = (i 1).val / 32 := congrFun ht 1
  have q2 : win0_1.index t (2 : Fin 4) = 0 := congrFun ht 2
  have q3 : win0_1.index t (3 : Fin 4) = 0 := congrFun ht 3
  refine ⟨t, flush0_1 t, ?_⟩
  rw [mem_blk]
  intro a
  match a with
  | ⟨0, _⟩ =>
    show win0_1.index t (0 : Fin 4) * 1 ≤ (i 0).val ∧ (i 0).val < win0_1.index t (0 : Fin 4) * 1 + 1
    omega
  | ⟨1, _⟩ =>
    show win0_1.index t (1 : Fin 4) * 32 ≤ (i 1).val ∧ (i 1).val < win0_1.index t (1 : Fin 4) * 32 + 32
    omega
  | ⟨2, _⟩ =>
    show win0_1.index t (2 : Fin 4) * 256 ≤ (i 2).val ∧ (i 2).val < win0_1.index t (2 : Fin 4) * 256 + 256
    omega
  | ⟨3, _⟩ =>
    show win0_1.index t (3 : Fin 4) * 256 ≤ (i 3).val ∧ (i 3).val < win0_1.index t (3 : Fin 4) * 256 + 256
    omega

/-- After the run the output array is the doubled argument array. -/
theorem final (c : Dev nD) : (dats m 0 c).arrAt 1 cfg0.N = up2 (α := Elt F .f32) (V m c main_arg0) :=
  (dats m 0 c).arrAt_eq_of_cover 1 (up2 (α := Elt F .f32) (V m c main_arg0)) (fun t _ => flushed_eq m c t) cover

/-- The kernel's run: the result is the doubled argument, the argument is unchanged. -/
theorem run : θ_run defs (onTc (τ := τ) (main (F := F))) ⟨m, fun _ => 0, ρ⟩ fun r => ∀ c : Dev nD,
      r.2.mem ((c : Thread nD τ).loc main_v0) = up2 (α := Elt F .f32) (m ((c : Thread nD τ).loc main_arg0))
      ∧ r.2.mem ((c : Thread nD τ).loc main_arg0) = m ((c : Thread nD τ).loc main_arg0) :=
  (θ_run defs _ _).mono (fun r h c => ⟨(h c).1.trans (final m c), (h c).2⟩) (Cert.KernelIdeal.Value.run_blocks m ρ)

end Cert.KernelIdeal.UpValue

end
-- ==== Proof.lean ====
/-
  A 2× nearest-neighbour upsample of an f32[16, 128, 128, 128] array along its two minor axes, as a pipelined kernel
  over 16 × 4 blocks of 32 channels, against the same doubling written with broadcasts and reshapes on the host.

  Neither program computes on the entries: each only re-lays them. Both results are the array whose entry
  (b, c, h, w) is the argument's entry (b, c, h / 2, w / 2) (`Cert.Upsample.up2`): on the kernel's side block by
  block, the blocks covering the output (Proof/KernelUp.lean); on the reference's side by reading its four operations
  at an index (Proof/RefUp.lean). The equality therefore holds for every argument, finite or not, and no rewrite of
  the idealization is involved. The three frames are the two kernels' runs and the reference's run with the result
  dropped.
-/
import proofs.«147741_j57312043598151_1_alg».proof.Defs
import proofs.«147741_j57312043598151_1_alg».proof.Proof.Gen.Kernel
import proofs.«147741_j57312043598151_1_alg».proof.Proof.Gen.Kernel.Skeleton
import proofs.«147741_j57312043598151_1_alg».proof.Proof.Gen.Kernel.Launch
import proofs.«147741_j57312043598151_1_alg».proof.Proof.Gen.Kernel.Points
import proofs.«147741_j57312043598151_1_alg».proof.Proof.Gen.Kernel.Frame
import proofs.«147741_j57312043598151_1_alg».proof.Proof.Gen.KernelIdeal
import proofs.«147741_j57312043598151_1_alg».proof.Proof.Gen.KernelIdeal.Skeleton
import proofs.«147741_j57312043598151_1_alg».proof.Proof.Gen.KernelIdeal.Launch
import proofs.«147741_j57312043598151_1_alg».proof.Proof.Gen.KernelIdeal.Points
import proofs.«147741_j57312043598151_1_alg».proof.Proof.Gen.KernelIdeal.Frame
import proofs.«147741_j57312043598151_1_alg».proof.Proof.Gen.ReferenceIdeal
import proofs.«147741_j57312043598151_1_alg».proof.Proof.Gen.Pre_finite_inputs
import proofs.«147741_j57312043598151_1_alg».proof.Proof.Gen.KernelIdeal.Value
import proofs.«147741_j57312043598151_1_alg».proof.Proof.Gen.ReferenceIdeal.Run
import proofs.«147741_j57312043598151_1_alg».proof.Proof.Gen.ReferenceIdeal.Read
import proofs.«147741_j57312043598151_1_alg».proof.Proof.Upsample
import proofs.«147741_j57312043598151_1_alg».proof.Proof.RefUp
import proofs.«147741_j57312043598151_1_alg».proof.Proof.KernelUp
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- Both runs end with the doubled argument: the kernel's array block by block, the reference's operation by
    operation, from arguments that agree. -/
theorem algebraic : Cert.algebraic_KernelIdeal_ReferenceIdeal := by
  intro m ρ m' ρ' _ hagree
  refine ⟨_, Cert.KernelIdeal.UpValue.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v3_eq, Cert.ReferenceIdeal.RefValue.result_eq_up2, hagree c]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
